-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v28_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S2000x128 : Shape := ⟨2, ![2000, 128]⟩
abbrev S1x128 : Shape := ⟨2, ![1, 128]⟩
abbrev S8000x128 : Shape := ⟨2, ![8000, 128]⟩
abbrev S_ : Shape := ⟨0, ![]⟩
abbrev S600000x1 : Shape := ⟨2, ![600000, 1]⟩
abbrev S3000x128 : Shape := ⟨2, ![3000, 128]⟩

abbrev nBuf : Space → Nat
  | .hbm => 63
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S8000x128, .f32⟩
  | .local _ .vmem, ⟨19, _⟩ => ⟨S8000x128, .f32⟩
  | .local _ .vmem, ⟨20, _⟩ => ⟨S128x128, .f32⟩
  | .local _ .vmem, ⟨21, _⟩ => ⟨S128, .f32⟩
  | .local _ .vmem, ⟨22, _⟩ => ⟨S8000x128, .f32⟩
  | .local _ .vmem, ⟨23, _⟩ => ⟨S8000x128, .f32⟩
  | .local _ .vmem, ⟨24, _⟩ => ⟨S3000x128, .f32⟩
  | .local _ .vmem, ⟨25, _⟩ => ⟨S3000x128, .f32⟩
  | .local _ .vmem, ⟨26, _⟩ => ⟨S3000x128, .f32⟩
  | .local _ .vmem, ⟨27, _⟩ => ⟨S3000x128, .f32⟩
  | .local _ .vmem, ⟨28, _⟩ => ⟨S3000x128, .f32⟩
  | .local _ .vmem, ⟨29, _⟩ => ⟨S3000x128, .f32⟩
  | .local _ .vmem, ⟨30, _⟩ => ⟨S3000x128, .f32⟩
  | .local _ .vmem, ⟨31, _⟩ => ⟨S3000x128, .f32⟩
  | .local _ .vmem, ⟨32, _⟩ => ⟨S3000x128, .f32⟩
  | .local _ .vmem, ⟨33, _⟩ => ⟨S3000x128, .f32⟩
  | .local _ .vmem, ⟨34, _⟩ => ⟨S3000x128, .f32⟩
  | .local _ .vmem, ⟨35, _⟩ => ⟨S3000x128, .f32⟩
  | .local _ .vmem, ⟨36, _⟩ => ⟨S3000x128, .f32⟩
  | .local _ .vmem, ⟨37, _⟩ => ⟨S3000x128, .f32⟩
  | .local _ .vmem, ⟨38, _⟩ => ⟨S3000x128, .f32⟩
  | .local _ .vmem, ⟨39, _⟩ => ⟨S3000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28_0 : Ref sig .tc := ⟨.hbm, 51, rfl⟩
abbrev main_v28_1 : Ref sig .tc := ⟨.hbm, 52, rfl⟩
abbrev main_v28_2 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S3000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S2000x128 : S1x128.Broadcasts S2000x128
  inb_S8000x128_S8000x128_0_0 : ∀ a, (![0, 0] : Fin 2 → Nat) a + S8000x128.size a ≤ S8000x128.size a
  h_S8000x128 : 0 < S8000x128.numel
  broadcasts_S1x128_S8000x128 : S1x128.Broadcasts S8000x128
  bcast_S_S600000 : S_.BroadcastsInDim S600000 (![] : Fin 0 → Fin S600000.rank)
  bcast_S600000_S600000x1_0 : S600000.BroadcastsInDim S600000x1 (![0] : Fin 1 → Fin S600000x1.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  dot_S8000x128_S128x128_S8000x128_1_0_0_1_n_n_wf : DotDims.WF S8000x128 S128x128 S8000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S600000x128.size a
  hwx1_0 : ∀ i : grid1.Coords, EltTy.bits .f32 = 32 ∨ (Rect.block (s := S600000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S600000x128.size a
  hwx1_3 : ∀ i : grid1.Coords, EltTy.bits .f32 = 32 ∨ (Rect.block (s := S600000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S600000x128.size a
  hwx2_0 : ∀ i : grid2.Coords, EltTy.bits .f32 = 32 ∨ (Rect.block (s := S600000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S600000x128.size a
  hwx2_1 : ∀ i : grid2.Coords, EltTy.bits .f32 = 32 ∨ (Rect.block (s := S600000x128) S3000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x128.size a ≤ S600000x128.size a
  hwx2_2 : ∀ i : grid2.Coords, EltTy.bits .f32 = 32 ∨ (Rect.block (s := S600000x128) S3000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x128.size a ≤ S600000x128.size a
  hwx2_3 : ∀ i : grid2.Coords, EltTy.bits .f32 = 32 ∨ (Rect.block (s := S600000x128) S3000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x128.size a ≤ S600000x128.size a
  hwx2_4 : ∀ i : grid2.Coords, EltTy.bits .f32 = 32 ∨ (Rect.block (s := S600000x128) S3000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3000x128.size a ≤ S600000x128.size a
  hwx2_5 : ∀ i : grid2.Coords, EltTy.bits .f32 = 32 ∨ (Rect.block (s := S600000x128) S3000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x128.size a ≤ S600000x128.size a
  hwx2_6 : ∀ i : grid2.Coords, EltTy.bits .f32 = 32 ∨ (Rect.block (s := S600000x128) S3000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x128.size a ≤ S600000x128.size a
  hwx2_7 : ∀ i : grid2.Coords, EltTy.bits .f32 = 32 ∨ (Rect.block (s := S600000x128) S3000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_2) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_3) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S3000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S3000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S3000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_0) S3000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v28_1) S3000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v28_2) S3000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v5_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v35) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S128x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x128, .f32⟩
  | .hbm, ⟨58, _⟩ => ⟨S600000x128, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S600000x128, .f32⟩
  | .hbm, ⟨63, _⟩ => ⟨S600000x128, .f32⟩
  | .hbm, ⟨64, _⟩ => ⟨S_, .f32⟩
  | .hbm, ⟨65, _⟩ => ⟨S600000x128, .f32⟩
  | .hbm, ⟨66, _⟩ => ⟨S600000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S600000x1, .i32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S600000x128, .f32⟩
  | .hbm, ⟨101, _⟩ => ⟨S600000x128, .f32⟩
  | .hbm, ⟨102, _⟩ => ⟨S_, .f32⟩
  | .hbm, ⟨103, _⟩ => ⟨S600000x128, .f32⟩
  | .hbm, ⟨104, _⟩ => ⟨S600000x128, .f32⟩
  | .hbm, ⟨105, _⟩ => ⟨S_, .f32⟩
  | .hbm, ⟨106, _⟩ => ⟨S600000x128, .f32⟩
  | .hbm, ⟨107, _⟩ => ⟨S600000x128, .f32⟩
  | .hbm, ⟨108, _⟩ => ⟨S600000x128, .f32⟩
  | .hbm, ⟨109, _⟩ => ⟨S600000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_c_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_1 : Ref sig .tc := ⟨.hbm, 48, rfl⟩
abbrev main_v32 : Ref sig .tc := ⟨.hbm, 49, rfl⟩
abbrev main_v33 : Ref sig .tc := ⟨.hbm, 50, rfl⟩
abbrev main_c_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v65 : Ref sig .tc := ⟨.hbm, 98, rfl⟩
abbrev main_v66 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v67 : Ref sig .tc := ⟨.hbm, 108, rfl⟩
abbrev main_v68 : Ref sig .tc := ⟨.hbm, 109, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
/-
  The mathematics the two programs share, over the extended reals, free of either program's text.

  THE LOGISTIC GATE  `sgm z = 1 / (1 + e^(-z))`  and  `silu z = z · sgm z`.
  A LINEAR LAYER: entry (r, j) of `lin x wt b` is  `∑ k, x[r,k] · wt[k,j] + b[j]`  (the weight already transposed).
  THE EDGE STAGE: with `z = a₀ + a₁ + a₂` (two gathered node projections and the edge projection) the gate is `sgm z`,
  the message is a third gathered node projection times the gate, and the new edge feature is `e + silu z`.
  THE NODE STAGE: with `z = a + s₁ / (s₂ + ε)` (the gated sum over incoming edges over the sum of the gates, regularised)
  the new node feature is `h + silu z`.
  One program negates by `0 - z`; on the extended reals that is `-z` (`zero_sub'`).
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## Shapes and indices -/

/-- Nodes by features, edges by features, a weight matrix, a bias vector. -/
abbrev SN : Shape := ⟨2, ![50000, 128]⟩
abbrev SE : Shape := ⟨2, ![600000, 128]⟩
abbrev SW : Shape := ⟨2, ![128, 128]⟩
abbrev SB : Shape := ⟨1, ![128]⟩

/-- Entry `k` of the row of a node index. -/
abbrev rowN (i : SN.Idx) (k : Fin 128) : SN.Idx := fun a => match a with
  | ⟨0, _⟩ => ⟨(i 0).val, (i 0).isLt⟩
  | ⟨1, _⟩ => ⟨k.val, k.isLt⟩
/-- Entry `k` of the column of a node index, in the weight matrix. -/
abbrev colN (i : SN.Idx) (k : Fin 128) : SW.Idx := fun a => match a with
  | ⟨0, _⟩ => ⟨k.val, k.isLt⟩
  | ⟨1, _⟩ => ⟨(i 1).val, (i 1).isLt⟩
/-- The bias entry of a node index's column. -/
abbrev biasN (i : SN.Idx) : SB.Idx := fun a => match a with
  | ⟨0, _⟩ => ⟨(i 1).val, (i 1).isLt⟩
/-- The same three for an edge index. -/
abbrev rowE (i : SE.Idx) (k : Fin 128) : SE.Idx := fun a => match a with
  | ⟨0, _⟩ => ⟨(i 0).val, (i 0).isLt⟩
  | ⟨1, _⟩ => ⟨k.val, k.isLt⟩
abbrev colE (i : SE.Idx) (k : Fin 128) : SW.Idx := fun a => match a with
  | ⟨0, _⟩ => ⟨k.val, k.isLt⟩
  | ⟨1, _⟩ => ⟨(i 1).val, (i 1).isLt⟩
abbrev biasE (i : SE.Idx) : SB.Idx := fun a => match a with
  | ⟨0, _⟩ => ⟨(i 1).val, (i 1).isLt⟩

/-! ## Scalars -/

/-- The float word of `1.0` as an extended real (never evaluated: the same word stands on both sides). -/
def one : EReal := Ideal.ofBits .f32 0x3F800000#32
/-- The float word of the regulariser `ε` (the float nearest `10⁻⁶`) as an extended real. -/
def eps : EReal := Ideal.ofBits .f32 0x358637BD#32
/-- The logistic gate. -/
def sgm (z : EReal) : EReal := Ideal.div one (one + Ideal.exp (-z))
/-- `z · sgm z`. -/
def silu (z : EReal) : EReal := z * sgm z

/-- Negation written as a difference from the zero word. -/
theorem zeroWord_sub (z : EReal) : Ideal.ofBits .f32 0x00000000#32 - z = -z := by
  rw [Ideal.ofBits_zero_f32, zero_sub]

/-- The gate of an edge. -/
def gate (a0 a1 a2 : EReal) : EReal := sgm (a0 + a1 + a2)
/-- The message an edge sends. -/
def message (b a0 a1 a2 : EReal) : EReal := b * sgm (a0 + a1 + a2)
/-- An edge's new feature. -/
def edgeOut (e a0 a1 a2 : EReal) : EReal := e + silu (a0 + a1 + a2)
/-- A node's new feature. -/
def nodeOut (h a s1 s2 : EReal) : EReal := h + silu (a + Ideal.div s1 (s2 + eps))

/-! ## Arrays -/

/-- The linear layer over the nodes. -/
def linN (x : SN.Idx → EReal) (wt : SW.Idx → EReal) (b : SB.Idx → EReal) : SN.Idx → EReal :=
  fun i => (∑ k : Fin 128, x (rowN i k) * wt (colN i k)) + b (biasN i)
/-- The linear layer over the edges. -/
def linE (x : SE.Idx → EReal) (wt : SW.Idx → EReal) (b : SB.Idx → EReal) : SE.Idx → EReal :=
  fun i => (∑ k : Fin 128, x (rowE i k) * wt (colE i k)) + b (biasE i)
/-- The gates of all edges. -/
def gateE (a0 a1 a2 : SE.Idx → EReal) : SE.Idx → EReal := fun i => gate (a0 i) (a1 i) (a2 i)
/-- The messages of all edges. -/
def messageE (b a0 a1 a2 : SE.Idx → EReal) : SE.Idx → EReal := fun i => message (b i) (a0 i) (a1 i) (a2 i)
/-- The new edge features. -/
def edgeOutE (e a0 a1 a2 : SE.Idx → EReal) : SE.Idx → EReal := fun i => edgeOut (e i) (a0 i) (a1 i) (a2 i)
/-- The new node features. -/
def nodeOutN (h a s1 s2 : SN.Idx → EReal) : SN.Idx → EReal := fun i => nodeOut (h i) (a i) (s1 i) (s2 i)

/-! ## The whole layer

Both programs compute one function of the fourteen inputs, built from the stages above and three array operations
they share and never open: the transpose of a weight (`tr`), the gather of a node array's rows at the entries of an
index array (`gth`), and the sum, into each node, of the edge rows whose index entry names it (`seg`). -/

section Layer

variable {ι : Type} (tr : (SW.Idx → EReal) → SW.Idx → EReal) (gth : (SN.Idx → EReal) → ι → SE.Idx → EReal)
  (seg : ι → (SE.Idx → EReal) → SN.Idx → EReal)

/-- The new edge features: `e + silu (Dh[src] + Eh[dst] + Ce)`. -/
def eOut (h : SN.Idx → EReal) (e : SE.Idx → EReal) (src dst : ι) (WC : SW.Idx → EReal) (bC : SB.Idx → EReal)
    (WD : SW.Idx → EReal) (bD : SB.Idx → EReal) (WE : SW.Idx → EReal) (bE : SB.Idx → EReal) : SE.Idx → EReal :=
  edgeOutE e (gth (linN h (tr WD) bD) src) (gth (linN h (tr WE) bE) dst) (linE e (tr WC) bC)

/-- The new node features: `h + silu (Ah + (∑_{dst} Bh[src] · σ) / (∑_{dst} σ + ε))`, `σ` the gates. -/
def hOut (h : SN.Idx → EReal) (e : SE.Idx → EReal) (src dst : ι) (WA : SW.Idx → EReal) (bA : SB.Idx → EReal)
    (WB : SW.Idx → EReal) (bB : SB.Idx → EReal) (WC : SW.Idx → EReal) (bC : SB.Idx → EReal)
    (WD : SW.Idx → EReal) (bD : SB.Idx → EReal) (WE : SW.Idx → EReal) (bE : SB.Idx → EReal) : SN.Idx → EReal :=
  nodeOutN h (linN h (tr WA) bA)
    (seg dst (messageE (gth (linN h (tr WB) bB) src) (gth (linN h (tr WD) bD) src) (gth (linN h (tr WE) bE) dst) (linE e (tr WC) bC)))
    (seg dst (gateE (gth (linN h (tr WD) bD) src) (gth (linN h (tr WE) bE) dst) (linE e (tr WC) bC)))

end Layer

end Cert.Spec

end
-- ==== Proof.Region0.lean ====
/-
  THE NODE PROJECTIONS of the kernel, read off its pipeline: the first pallas_call walks the node features in 25 blocks
  of 2000 rows; at each block it multiplies the block by each of four (already transposed) 128 × 128 weights on the
  matrix unit, into a zero accumulator, and adds the bias row: entry (r, j) of an output block is
  `∑ k, x[r,k] · wt[k,j] + b[j]`, the format changes being the identity on the extended reals. Block `t` of the
  features and of each output holds rows `2000·t … 2000·t + 1999`, the weights and biases are whole at every point,
  and the 25 blocks tile the 50000 rows: each output array ends holding the linear layer of the feature array and its
  own weight and bias, as the region found them, at every index.
-/
import proofs.«153043_j46102178955281_1_alg».proof.Proof.Gen.KernelIdeal.Frame
import proofs.«153043_j46102178955281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The matrix unit's product at an entry -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a block of rows with a weight, into the zero accumulator, at entry (p, q): the sum over the
    contracted axis. -/
theorem mm_apply (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- One projection's stored value at entry (p, q) of the block: the linear layer's sum over the row of the block and
    the column of the weight, plus the bias of the column. -/
theorem core_apply (x0 : Vec Ideal S2000x128 .f32) (x1 : Vec Ideal S128x128 .f32) (x2 : Vec Ideal S128 .f32) (p : Fin 2000) (q : Fin 128) :
    addf (F := Ideal) (matmul (F := Ideal) dot_S2000x128_S128x128_S2000x128_1_0_0_1_n_n none (truncf .bf16 x0 bitsLt_bf16_f32)
        (truncf .bf16 (shapeCast S128x128 x1 shapeCasts_S128x128_S128x128) bitsLt_bf16_f32) (constant (F := Ideal) S2000x128 .f32 0x00000000#32))
      (broadcastTo S2000x128 (shapeCast S1x128 (shapeCast S1x128 x2 shapeCasts_S128_S1x128) shapeCasts_S1x128_S1x128) broadcasts_S1x128_S2000x128) (ix2 p q)
    = (∑ k : Fin 128, x0 (ix2 p k) * x1 (ix2 k q)) + x2 (ix1 q) := by
  rw [addf_apply, mm_apply, broadcastTo_1b_ab_apply]
  simp only [shapeCast_self]
  rw [shapeCast_a_1a_apply]
  rfl

/-- What the body stores for each of the four projections, from the loaded features, weight and bias. -/
abbrev body9 (x0 : Vec Ideal S2000x128 .f32) (x1 : Vec Ideal S128x128 .f32) (x2 : Vec Ideal S128 .f32) : FVec Ideal S2000x128 .f32 := k0_pay3 x0 x1 x2
abbrev body10 (x0 : Vec Ideal S2000x128 .f32) (x1 : Vec Ideal S128x128 .f32) (x2 : Vec Ideal S128 .f32) : FVec Ideal S2000x128 .f32 := k0_pay4 x0 x1 x2
abbrev body11 (x0 : Vec Ideal S2000x128 .f32) (x1 : Vec Ideal S128x128 .f32) (x2 : Vec Ideal S128 .f32) : FVec Ideal S2000x128 .f32 := k0_pay5 x0 x1 x2
abbrev body12 (x0 : Vec Ideal S2000x128 .f32) (x1 : Vec Ideal S128x128 .f32) (x2 : Vec Ideal S128 .f32) : FVec Ideal S2000x128 .f32 := k0_pay1 (k0_pay2 x0) (k0_pay6 x1) x2

theorem body9_apply (x0 : Vec Ideal S2000x128 .f32) (x1 : Vec Ideal S128x128 .f32) (x2 : Vec Ideal S128 .f32) (p : Fin 2000) (q : Fin 128) :
    body9 x0 x1 x2 (ix2 p q) = (∑ k : Fin 128, x0 (ix2 p k) * x1 (ix2 k q)) + x2 (ix1 q) := by
  unfold body9 k0_pay3 k0_pay2; exact core_apply x0 x1 x2 p q
theorem body10_apply (x0 : Vec Ideal S2000x128 .f32) (x1 : Vec Ideal S128x128 .f32) (x2 : Vec Ideal S128 .f32) (p : Fin 2000) (q : Fin 128) :
    body10 x0 x1 x2 (ix2 p q) = (∑ k : Fin 128, x0 (ix2 p k) * x1 (ix2 k q)) + x2 (ix1 q) := by
  unfold body10 k0_pay4 k0_pay2; exact core_apply x0 x1 x2 p q
theorem body11_apply (x0 : Vec Ideal S2000x128 .f32) (x1 : Vec Ideal S128x128 .f32) (x2 : Vec Ideal S128 .f32) (p : Fin 2000) (q : Fin 128) :
    body11 x0 x1 x2 (ix2 p q) = (∑ k : Fin 128, x0 (ix2 p k) * x1 (ix2 k q)) + x2 (ix1 q) := by
  unfold body11 k0_pay5 k0_pay2; exact core_apply x0 x1 x2 p q
theorem body12_apply (x0 : Vec Ideal S2000x128 .f32) (x1 : Vec Ideal S128x128 .f32) (x2 : Vec Ideal S128 .f32) (p : Fin 2000) (q : Fin 128) :
    body12 x0 x1 x2 (ix2 p q) = (∑ k : Fin 128, x0 (ix2 p k) * x1 (ix2 k q)) + x2 (ix1 q) := by
  unfold body12 k0_pay1 k0_pay2 k0_pay6; exact core_apply x0 x1 x2 p q

/-! ## From blocks to arrays -/

/-- The printed index maps, decided over the 25 grid points: the feature window and the four outputs sit at block
    (t, 0), every weight at (0, 0), every bias at (0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Row `2000·t + p`, column `q` of a node array: where entry (p, q) of block `t` sits. -/
def rowAt (t : Fin cfg0.N) (p : Fin 2000) (q : Fin 128) : S50000x128.Idx := fun a => match a with
  | ⟨0, _⟩ => ⟨t.val * 2000 + p.val, by have h1 : t.val < 25 := t.isLt; have h2 := p.isLt; show t.val * 2000 + p.val < 50000; omega⟩
  | ⟨1, _⟩ => ⟨q.val, q.isLt⟩

/-- Every index of a node array is such a place: the block of its row's group of 2000, the row's rank in the group. -/
theorem exists_rowAt (i : S50000x128.Idx) : ∃ (t : Fin cfg0.N) (p : Fin 2000) (q : Fin 128), i = rowAt t p q := by
  have hi0 : (i 0).val < 50000 := (i 0).isLt
  refine ⟨⟨(i 0).val / 2000, by show (i 0).val / 2000 < 25; omega⟩, ⟨(i 0).val % 2000, Nat.mod_lt _ (by decide)⟩, ⟨(i 1).val, (i 1).isLt⟩, ?_⟩
  funext a; apply Fin.ext
  match a with
  | ⟨0, _⟩ => show (i 0).val = (i 0).val / 2000 * 2000 + (i 0).val % 2000; omega
  | ⟨1, _⟩ => rfl

/-- Entry (p, k) of block `t` of the features sits at row `2000·t + p`, column `k`. -/
theorem emb_in (t : Fin cfg0.N) (p : Fin 2000) (k : Fin 128) : ((cfg0.win 0).blk t).view.emb (ix2 p k) = rowAt t p k := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- The row, column and bias indices of the linear layer at such a place. -/
theorem rowN_rowAt (t : Fin cfg0.N) (p : Fin 2000) (q k : Fin 128) : Cert.Spec.rowN (rowAt t p q) k = rowAt t p k :=
  funext fun a => by match a with | ⟨0, _⟩ => rfl | ⟨1, _⟩ => rfl
theorem colN_rowAt (t : Fin cfg0.N) (p : Fin 2000) (q k : Fin 128) : Cert.Spec.colN (rowAt t p q) k = (ix2 k q : S128x128.Idx) :=
  funext fun a => by match a with | ⟨0, _⟩ => rfl | ⟨1, _⟩ => rfl
theorem biasN_rowAt (t : Fin cfg0.N) (p : Fin 2000) (q : Fin 128) : Cert.Spec.biasN (rowAt t p q) = (ix1 q : S128.Idx) :=
  funext fun a => by match a with | ⟨0, _⟩ => rfl

/-- The sum over a block's row and a weight's column, plus the bias, is the linear layer of the arrays at the entry's
    place, once each loaded entry is known to be its array's entry there. -/
theorem block_core (A0 : S50000x128.Idx → EReal) (Aw : S128x128.Idx → EReal) (Ab : S128.Idx → EReal)
    (x0 : S2000x128.Idx → EReal) (x1 : S128x128.Idx → EReal) (x2 : S128.Idx → EReal) (t : Fin cfg0.N)
    (h0 : ∀ (p : Fin 2000) (k : Fin 128), x0 (ix2 p k) = A0 (rowAt t p k)) (h1 : ∀ k q : Fin 128, x1 (ix2 k q) = Aw (ix2 k q))
    (h2 : ∀ q : Fin 128, x2 (ix1 q) = Ab (ix1 q)) (p : Fin 2000) (q : Fin 128) :
    (∑ k : Fin 128, x0 (ix2 p k) * x1 (ix2 k q)) + x2 (ix1 q) = Cert.Spec.linN A0 Aw Ab (rowAt t p q) := by
  unfold Cert.Spec.linN
  refine congrArg₂ (· + ·) (Finset.sum_congr rfl fun k _ => ?_) ?_
  · rw [h0, h1, rowN_rowAt, colN_rowAt]
  · rw [h2, biasN_rowAt]

end Cert.KernelIdeal.Region0

end
-- ==== Proof.Region0W9.lean ====
/-
  THE FIRST NODE PROJECTION (output window 9 of the first pallas_call; its weight is window 1, its bias window 2): the
  weight's and the bias's block at every grid point is the whole array, the output's block `t` is rows
  `2000·t … 2000·t + 1999`; so what point `t` writes back is block `t` of the linear layer of the feature array with
  this weight and bias, the blocks cover the array, and the array ends holding that linear layer.
-/
import proofs.«153043_j46102178955281_1_alg».proof.Proof.Region0

set_option maxRecDepth 16384

noncomputable section

namespace Cert.KernelIdeal.Region0W9

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Region0

variable (V : (c : Dev nD) → (b : Ref sig .tc) → Buf (Elt Ideal) ((c : Thread nD τ).loc b))

/-- The weight's block is the whole weight. -/
theorem emb_wt (t : Fin cfg0.N) (k q : Fin 128) : ((cfg0.win 1).blk t).view.emb (ix2 k q) = (ix2 k q : S128x128.Idx) := by
  have hf := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega
/-- The bias's block is the whole bias. -/
theorem emb_bs (t : Fin cfg0.N) (q : Fin 128) : ((cfg0.win 2).blk t).view.emb (ix1 q) = (ix1 q : S128.Idx) := by
  have hf := idx_facts t
  funext a; apply Fin.ext
  match a with
  | ⟨0, _⟩ => show win0_2.index t (0 : Fin 1) * 128 + 1 * q.val = q.val; omega
/-- Entry (p, q) of the output's block `t` sits at row `2000·t + p`, column `q`. -/
theorem emb_out (t : Fin cfg0.N) (p : Fin 2000) (q : Fin 128) : ((cfg0.win 9).blk t).view.emb (ix2 p q) = rowAt t p q := by
  have hf := idx_facts t
  funext a; apply Fin.ext
  match a with
  | ⟨0, _⟩ => show win0_9.index t (0 : Fin 2) * 2000 + 1 * p.val = t.val * 2000 + p.val; omega
  | ⟨1, _⟩ => show win0_9.index t (1 : Fin 2) * 128 + 1 * q.val = q.val; omega

/-- Entry `y` of what the body stores at point `t` is the linear layer, of the arrays the region found, at the place
    of that entry in the array. -/
theorem block (c : Dev nD) (t : Fin cfg0.N) (y : S2000x128.Idx) :
    body9 (iblk0 V c 0 t) (iblk0 V c 1 t) (iblk0 V c 2 t) y
      = Cert.Spec.linN (V c main_arg0) (V c main_v0) (V c main_arg5) (((cfg0.win 9).blk t).view.emb y) := by
  obtain ⟨p, q, rfl⟩ : ∃ (p : Fin 2000) (q : Fin 128), y = ix2 p q := ⟨y 0, y 1, eq_ix2 y⟩
  refine (body9_apply (iblk0 V c 0 t) (iblk0 V c 1 t) (iblk0 V c 2 t) p q).trans ?_
  rw [emb_out]
  exact block_core (V c main_arg0) (V c main_v0) (V c main_arg5) (iblk0 V c 0 t) (iblk0 V c 1 t) (iblk0 V c 2 t) t
    (fun p k => congrArg (V c main_arg0) (emb_in t p k)) (fun k q => congrArg (V c main_v0) (emb_wt t k q))
    (fun q => congrArg (V c main_arg5) (emb_bs t q)) p q

/-- What grid point `t` writes back is block `t` of that linear layer. -/
theorem flushed (c : Dev nD) (t : Fin cfg0.N) :
    (dat0 V c).flushed 9 t = ((cfg0.win 9).blk t).view.read (Elt Ideal)
      (Cert.Spec.linN (V c main_arg0) (V c main_v0) (V c main_arg5)) := by
  show (cfg0.win 9).cut (grid0.coords t) ((dat0 V c).after 9 t) = _
  rw [after0_9]
  unfold out0_9
  rw [View.canon_unit_zero hz2]
  simp only [View.ld_unit_zero (S := S2000x128) hz2, View.ld_unit_zero (S := S128x128) hz2, View.ld_unit_zero (S := S128) hz1]
  funext y
  exact block V c t y

/-- Every index of the output array lies in some grid point's block. -/
theorem cover (i : S50000x128.Idx) : ∃ t : Fin cfg0.N, (cfg0.win 9).flush t = true ∧ i ∈ ((cfg0.win 9).blk t).view.set := by
  obtain ⟨t, p, q, rfl⟩ := exists_rowAt i
  refine ⟨t, flush0_9 t, ?_⟩
  rw [← emb_out t p q]
  exact ((cfg0.win 9).blk t).view.emb_mem_set (ix2 p q)

/-- The output array after the region: the linear layer of the features and this projection's weight and bias. -/
theorem final (c : Dev nD) : (dat0 V c).arrAt 9 cfg0.N = Cert.Spec.linN (V c main_arg0) (V c main_v0) (V c main_arg5) :=
  (dat0 V c).arrAt_eq_of_cover 9 _ (fun t _ => flushed V c t) cover

end Cert.KernelIdeal.Region0W9

end
-- ==== Proof.Region1.lean ====
/-
  THE EDGE PROJECTION of the kernel, read off its pipeline: the second pallas_call walks the edge features in 75 blocks
  of 8000 rows; at each block it multiplies the block by the (already transposed) 128 × 128 weight on the matrix unit,
  into a zero accumulator, and adds the bias row: entry (r, j) of the output block is `∑ k, e[r,k] · wt[k,j] + b[j]`.
  Block `t` of the features and of the output holds rows `8000·t … 8000·t + 7999`, the weight and the bias are whole
  at every point, and the 75 blocks tile the 600000 rows: the output array ends holding the linear layer of the edge
  features with that weight and bias, as the region found them, at every index.
-/
import proofs.«153043_j46102178955281_1_alg».proof.Proof.Gen.KernelIdeal.Frame
import proofs.«153043_j46102178955281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The matrix unit's product at an entry -/

theorem lhs_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The product of a block of edge rows with the weight, into the zero accumulator, at entry (p, q). -/
theorem mm_apply (a : FVec Ideal S8000x128 .bf16) (w : FVec Ideal S128x128 .bf16) (p : Fin 8000) (q : Fin 128) :
    matmul (F := Ideal) dot_S8000x128_S128x128_S8000x128_1_0_0_1_n_n none a w (constant (F := Ideal) S8000x128 .f32 0x00000000#32) (ix2 p q)
      = ∑ k : Fin 128, a (ix2 p k) * w (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_0 _ _
    | ⟨1, _⟩ => exact (lhs_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at entry (p, q) of the block. -/
theorem pay_apply (x0 : Vec Ideal S8000x128 .f32) (x1 : Vec Ideal S128x128 .f32) (x2 : Vec Ideal S128 .f32) (p : Fin 8000) (q : Fin 128) :
    k1_pay1 x0 x1 x2 (ix2 p q) = (∑ k : Fin 128, x0 (ix2 p k) * x1 (ix2 k q)) + x2 (ix1 q) := by
  unfold k1_pay1
  rw [addf_apply, mm_apply, broadcastTo_1b_ab_apply]
  simp only [shapeCast_self]
  rw [shapeCast_a_1a_apply]
  rfl

/-! ## From blocks to the array -/

/-- The printed index maps, decided over the 75 grid points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Row `8000·t + p`, column `q` of an edge array: where entry (p, q) of block `t` sits. -/
def rowAt (t : Fin cfg1.N) (p : Fin 8000) (q : Fin 128) : S600000x128.Idx := fun a => match a with
  | ⟨0, _⟩ => ⟨t.val * 8000 + p.val, by have h1 : t.val < 75 := t.isLt; have h2 := p.isLt; show t.val * 8000 + p.val < 600000; omega⟩
  | ⟨1, _⟩ => ⟨q.val, q.isLt⟩

theorem exists_rowAt (i : S600000x128.Idx) : ∃ (t : Fin cfg1.N) (p : Fin 8000) (q : Fin 128), i = rowAt t p q := by
  have hi0 : (i 0).val < 600000 := (i 0).isLt
  refine ⟨⟨(i 0).val / 8000, by show (i 0).val / 8000 < 75; omega⟩, ⟨(i 0).val % 8000, Nat.mod_lt _ (by decide)⟩, ⟨(i 1).val, (i 1).isLt⟩, ?_⟩
  funext a; apply Fin.ext
  match a with
  | ⟨0, _⟩ => show (i 0).val = (i 0).val / 8000 * 8000 + (i 0).val % 8000; omega
  | ⟨1, _⟩ => rfl

theorem emb_in (t : Fin cfg1.N) (p : Fin 8000) (k : Fin 128) : ((cfg1.win 0).blk t).view.emb (ix2 p k) = rowAt t p k := by
  have hf := idx_facts t
  funext a; apply Fin.ext
  match a with
  | ⟨0, _⟩ => show win1_0.index t (0 : Fin 2) * 8000 + 1 * p.val = t.val * 8000 + p.val; omega
  | ⟨1, _⟩ => show win1_0.index t (1 : Fin 2) * 128 + 1 * k.val = k.val; omega
theorem emb_wt (t : Fin cfg1.N) (k q : Fin 128) : ((cfg1.win 1).blk t).view.emb (ix2 k q) = (ix2 k q : S128x128.Idx) := by
  have hf := idx_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega
theorem emb_bs (t : Fin cfg1.N) (q : Fin 128) : ((cfg1.win 2).blk t).view.emb (ix1 q) = (ix1 q : S128.Idx) := by
  have hf := idx_facts t
  funext a; apply Fin.ext
  match a with
  | ⟨0, _⟩ => show win1_2.index t (0 : Fin 1) * 128 + 1 * q.val = q.val; omega
theorem emb_out (t : Fin cfg1.N) (p : Fin 8000) (q : Fin 128) : ((cfg1.win 3).blk t).view.emb (ix2 p q) = rowAt t p q := by
  have hf := idx_facts t
  funext a; apply Fin.ext
  match a with
  | ⟨0, _⟩ => show win1_3.index t (0 : Fin 2) * 8000 + 1 * p.val = t.val * 8000 + p.val; omega
  | ⟨1, _⟩ => show win1_3.index t (1 : Fin 2) * 128 + 1 * q.val = q.val; omega

theorem rowE_rowAt (t : Fin cfg1.N) (p : Fin 8000) (q k : Fin 128) : Cert.Spec.rowE (rowAt t p q) k = rowAt t p k :=
  funext fun a => by match a with | ⟨0, _⟩ => rfl | ⟨1, _⟩ => rfl
theorem colE_rowAt (t : Fin cfg1.N) (p : Fin 8000) (q k : Fin 128) : Cert.Spec.colE (rowAt t p q) k = (ix2 k q : S128x128.Idx) :=
  funext fun a => by match a with | ⟨0, _⟩ => rfl | ⟨1, _⟩ => rfl
theorem biasE_rowAt (t : Fin cfg1.N) (p : Fin 8000) (q : Fin 128) : Cert.Spec.biasE (rowAt t p q) = (ix1 q : S128.Idx) :=
  funext fun a => by match a with | ⟨0, _⟩ => rfl

/-- The sum over a block's row and the weight's column, plus the bias, is the linear layer of the arrays at the entry's
    place, once each loaded entry is known to be its array's entry there. -/
theorem block_core (A0 : S600000x128.Idx → EReal) (Aw : S128x128.Idx → EReal) (Ab : S128.Idx → EReal)
    (x0 : S8000x128.Idx → EReal) (x1 : S128x128.Idx → EReal) (x2 : S128.Idx → EReal) (t : Fin cfg1.N)
    (h0 : ∀ (p : Fin 8000) (k : Fin 128), x0 (ix2 p k) = A0 (rowAt t p k)) (h1 : ∀ k q : Fin 128, x1 (ix2 k q) = Aw (ix2 k q))
    (h2 : ∀ q : Fin 128, x2 (ix1 q) = Ab (ix1 q)) (p : Fin 8000) (q : Fin 128) :
    (∑ k : Fin 128, x0 (ix2 p k) * x1 (ix2 k q)) + x2 (ix1 q) = Cert.Spec.linE A0 Aw Ab (rowAt t p q) := by
  unfold Cert.Spec.linE
  refine congrArg₂ (· + ·) (Finset.sum_congr rfl fun k _ => ?_) ?_
  · rw [h0, h1, rowE_rowAt, colE_rowAt]
  · rw [h2, biasE_rowAt]

theorem block (c : Dev nD) (t : Fin cfg1.N) (y : S8000x128.Idx) :
    k1_pay1 (iblk1 V c 0 t) (iblk1 V c 1 t) (iblk1 V c 2 t) y
      = Cert.Spec.linE (V c main_arg1) (V c main_v2) (V c main_arg9) (((cfg1.win 3).blk t).view.emb y) := by
  obtain ⟨p, q, rfl⟩ : ∃ (p : Fin 8000) (q : Fin 128), y = ix2 p q := ⟨y 0, y 1, eq_ix2 y⟩
  refine (pay_apply (iblk1 V c 0 t) (iblk1 V c 1 t) (iblk1 V c 2 t) p q).trans ?_
  rw [emb_out]
  exact block_core (V c main_arg1) (V c main_v2) (V c main_arg9) (iblk1 V c 0 t) (iblk1 V c 1 t) (iblk1 V c 2 t) t
    (fun p k => congrArg (V c main_arg1) (emb_in t p k)) (fun k q => congrArg (V c main_v2) (emb_wt t k q))
    (fun q => congrArg (V c main_arg9) (emb_bs t q)) p q

theorem flushed (c : Dev nD) (t : Fin cfg1.N) :
    (dat1 V c).flushed 3 t = ((cfg1.win 3).blk t).view.read (Elt Ideal)
      (Cert.Spec.linE (V c main_arg1) (V c main_v2) (V c main_arg9)) := by
  show (cfg1.win 3).cut (grid1.coords t) ((dat1 V c).after 3 t) = _
  rw [after1_3]
  unfold out1_3
  rw [View.canon_unit_zero hz2]
  simp only [View.ld_unit_zero (S := S8000x128) hz2, View.ld_unit_zero (S := S128x128) hz2, View.ld_unit_zero (S := S128) hz1]
  funext y
  exact block V c t y

theorem cover (i : S600000x128.Idx) : ∃ t : Fin cfg1.N, (cfg1.win 3).flush t = true ∧ i ∈ ((cfg1.win 3).blk t).view.set := by
  obtain ⟨t, p, q, rfl⟩ := exists_rowAt i
  refine ⟨t, flush1_3 t, ?_⟩
  rw [← emb_out t p q]
  exact ((cfg1.win 3).blk t).view.emb_mem_set (ix2 p q)

/-- THE EDGE PROJECTION after the region. -/
theorem final (c : Dev nD) : (dat1 V c).arrAt 3 cfg1.N = Cert.Spec.linE (V c main_arg1) (V c main_v2) (V c main_arg9) :=
  (dat1 V c).arrAt_eq_of_cover 3 _ (fun t _ => flushed V c t) cover

end Cert.KernelIdeal.Region1

end
-- ==== Proof.Region2.lean ====
/-
  THE EDGE STAGE of the kernel, read off its pipeline: the third pallas_call walks the edge arrays in 200 blocks of
  3000 rows; at each block it loads the rows of the two gathered node projections `a₀`, `a₁`, of the edge projection
  `a₂`, of a third gathered node projection `b` and of the input edge features `e`, and stores three blocks entry by
  entry: the gate `sgm (a₀ + a₁ + a₂)`, the message `b · sgm (a₀ + a₁ + a₂)` and the new edge feature
  `e + silu (a₀ + a₁ + a₂)`. Block `t` of every window holds rows `3000·t … 3000·t + 2999` and the 200 blocks tile
  the 600000 rows, so each output array ends holding its function of the input arrays, as the region found them, at
  every index.
-/
import proofs.«153043_j46102178955281_1_alg».proof.Proof.Gen.KernelIdeal.Frame
import proofs.«153043_j46102178955281_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's stored values at one entry of the block -/

/-- The gate. -/
theorem gate_apply (x0 x1 x2 : Vec Ideal S3000x128 .f32) (y : S3000x128.Idx) :
    k2_pay2 x0 x1 x2 y = Cert.Spec.gate (x0 y) (x1 y) (x2 y) := by
  unfold k2_pay2 k2_pay1
  simp only [shapeCast_self]
  show Ideal.div (Ideal.ofBits .f32 0x3F800000#32) (Ideal.ofBits .f32 0x3F800000#32
      + Ideal.exp (Ideal.ofBits .f32 0x00000000#32 - (x0 y + x1 y + x2 y))) = _
  rw [Cert.Spec.zeroWord_sub]
  rfl

/-- The message. -/
theorem message_apply (x0 x1 x2 x3 : Vec Ideal S3000x128 .f32) (y : S3000x128.Idx) :
    k2_pay3 x0 x1 x2 x3 y = Cert.Spec.message (x3 y) (x0 y) (x1 y) (x2 y) := by
  unfold k2_pay3
  simp only [shapeCast_self]
  show x3 y * k2_pay2 x0 x1 x2 y = _
  rw [gate_apply]
  rfl

/-- The new edge feature. -/
theorem edgeOut_apply (x0 x1 x2 x4 : Vec Ideal S3000x128 .f32) (y : S3000x128.Idx) :
    k2_pay4 x0 x1 x2 x4 y = Cert.Spec.edgeOut (x4 y) (x0 y) (x1 y) (x2 y) := by
  unfold k2_pay4 k2_pay1
  simp only [shapeCast_self]
  show x4 y + (x0 y + x1 y + x2 y) * Ideal.div (Ideal.ofBits .f32 0x3F800000#32) (Ideal.ofBits .f32 0x3F800000#32
      + Ideal.exp (Ideal.ofBits .f32 0x00000000#32 - (x0 y + x1 y + x2 y))) = _
  rw [Cert.Spec.zeroWord_sub]
  rfl

/-! ## From blocks to arrays -/

/-- The printed index maps, decided over the 200 grid points: every window's block index is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row `3000·t + y₀`, column `y₁` of an edge array: where entry `y` of block `t` sits. -/
def rowAt (t : Fin cfg2.N) (y : S3000x128.Idx) : S600000x128.Idx := fun a => match a with
  | ⟨0, _⟩ => ⟨t.val * 3000 + (y 0).val, by have h1 : t.val < 200 := t.isLt; have h2 : (y 0).val < 3000 := (y 0).isLt; show t.val * 3000 + (y 0).val < 600000; omega⟩
  | ⟨1, _⟩ => ⟨(y 1).val, (y 1).isLt⟩

/-- Entry `y` of block `t` of every window sits at that place of its array. -/
theorem emb_eq (t : Fin cfg2.N) (y : S3000x128.Idx) :
    ((cfg2.win 0).blk t).view.emb y = rowAt t y ∧ ((cfg2.win 1).blk t).view.emb y = rowAt t y
    ∧ ((cfg2.win 2).blk t).view.emb y = rowAt t y ∧ ((cfg2.win 3).blk t).view.emb y = rowAt t y
    ∧ ((cfg2.win 4).blk t).view.emb y = rowAt t y ∧ ((cfg2.win 5).blk t).view.emb y = rowAt t y
    ∧ ((cfg2.win 6).blk t).view.emb y = rowAt t y ∧ ((cfg2.win 7).blk t).view.emb y = rowAt t y := by
  have hf := idx_facts t
  refine ⟨?_, ?_, ?_, ?_, ?_, ?_, ?_, ?_⟩
  · funext a; apply Fin.ext
    match a with
    | ⟨0, _⟩ => show win2_0.index t (0 : Fin 2) * 3000 + 1 * (y 0).val = t.val * 3000 + (y 0).val; omega
    | ⟨1, _⟩ => show win2_0.index t (1 : Fin 2) * 128 + 1 * (y 1).val = (y 1).val; omega
  · funext a; apply Fin.ext
    match a with
    | ⟨0, _⟩ => show win2_1.index t (0 : Fin 2) * 3000 + 1 * (y 0).val = t.val * 3000 + (y 0).val; omega
    | ⟨1, _⟩ => show win2_1.index t (1 : Fin 2) * 128 + 1 * (y 1).val = (y 1).val; omega
  · funext a; apply Fin.ext
    match a with
    | ⟨0, _⟩ => show win2_2.index t (0 : Fin 2) * 3000 + 1 * (y 0).val = t.val * 3000 + (y 0).val; omega
    | ⟨1, _⟩ => show win2_2.index t (1 : Fin 2) * 128 + 1 * (y 1).val = (y 1).val; omega
  · funext a; apply Fin.ext
    match a with
    | ⟨0, _⟩ => show win2_3.index t (0 : Fin 2) * 3000 + 1 * (y 0).val = t.val * 3000 + (y 0).val; omega
    | ⟨1, _⟩ => show win2_3.index t (1 : Fin 2) * 128 + 1 * (y 1).val = (y 1).val; omega
  · funext a; apply Fin.ext
    match a with
    | ⟨0, _⟩ => show win2_4.index t (0 : Fin 2) * 3000 + 1 * (y 0).val = t.val * 3000 + (y 0).val; omega
    | ⟨1, _⟩ => show win2_4.index t (1 : Fin 2) * 128 + 1 * (y 1).val = (y 1).val; omega
  · funext a; apply Fin.ext
    match a with
    | ⟨0, _⟩ => show win2_5.index t (0 : Fin 2) * 3000 + 1 * (y 0).val = t.val * 3000 + (y 0).val; omega
    | ⟨1, _⟩ => show win2_5.index t (1 : Fin 2) * 128 + 1 * (y 1).val = (y 1).val; omega
  · funext a; apply Fin.ext
    match a with
    | ⟨0, _⟩ => show win2_6.index t (0 : Fin 2) * 3000 + 1 * (y 0).val = t.val * 3000 + (y 0).val; omega
    | ⟨1, _⟩ => show win2_6.index t (1 : Fin 2) * 128 + 1 * (y 1).val = (y 1).val; omega
  · funext a; apply Fin.ext
    match a with
    | ⟨0, _⟩ => show win2_7.index t (0 : Fin 2) * 3000 + 1 * (y 0).val = t.val * 3000 + (y 0).val; omega
    | ⟨1, _⟩ => show win2_7.index t (1 : Fin 2) * 128 + 1 * (y 1).val = (y 1).val; omega

/-- An index of an edge array lies in the block of its row's group of 3000, on both axes. -/
theorem in_block (i : S600000x128.Idx) :
    (i 0).val / 3000 < cfg2.N ∧ (i 0).val / 3000 * 3000 ≤ (i 0).val ∧ (i 0).val < (i 0).val / 3000 * 3000 + 3000 ∧ (i 1).val < 128 := by
  have hi0 : (i 0).val < 600000 := (i 0).isLt
  have hi1 : (i 1).val < 128 := (i 1).isLt
  refine ⟨?_, ?_, ?_, hi1⟩
  · show (i 0).val / 3000 < 200; omega
  · omega
  · omega

/-! ### The gates (output window 5) -/

theorem flushed5 (c : Dev nD) (t : Fin cfg2.N) :
    (dat2 V c).flushed 5 t = ((cfg2.win 5).blk t).view.read (Elt Ideal)
      (Cert.Spec.gateE (V c main_v13) (V c main_v20) (V c main_v6)) := by
  show (cfg2.win 5).cut (grid2.coords t) ((dat2 V c).after 5 t) = _
  rw [after2_5]
  unfold out2_5
  rw [View.canon_unit_zero hz]
  simp only [View.ld_unit_zero (S := S3000x128) hz]
  funext y
  obtain ⟨h0, h1, h2, h3, h4, h5, h6, h7⟩ := emb_eq t y
  refine (gate_apply (iblk2 V c 0 t) (iblk2 V c 1 t) (iblk2 V c 2 t) y).trans ?_
  show Cert.Spec.gate (V c main_v13 (((cfg2.win 0).blk t).view.emb y)) (V c main_v20 (((cfg2.win 1).blk t).view.emb y))
      (V c main_v6 (((cfg2.win 2).blk t).view.emb y))
    = Cert.Spec.gate (V c main_v13 (((cfg2.win 5).blk t).view.emb y)) (V c main_v20 (((cfg2.win 5).blk t).view.emb y))
      (V c main_v6 (((cfg2.win 5).blk t).view.emb y))
  rw [h0, h1, h2, h5]

theorem mem_blk5 (t : Fin cfg2.N) (i : S600000x128.Idx) :
    i ∈ ((cfg2.win 5).blk t).view.set ↔ ∀ a : Fin 2, win2_5.index t a * S3000x128.size a ≤ (i a).val ∧ (i a).val < win2_5.index t a * S3000x128.size a + S3000x128.size a := by
  show i ∈ ((View.whole main_v28_0).slice (win2_5.rect t)).set ↔ _
  rw [View.set_slice_whole, Rect.mem_set_unit]
  exact Iff.rfl

theorem cover5 (i : S600000x128.Idx) : ∃ t : Fin cfg2.N, (cfg2.win 5).flush t = true ∧ i ∈ ((cfg2.win 5).blk t).view.set := by
  obtain ⟨ht, hlo, hhi, h1⟩ := in_block i
  refine ⟨⟨(i 0).val / 3000, ht⟩, flush2_5 _, ?_⟩
  have hf := idx_facts ⟨(i 0).val / 3000, ht⟩
  rw [mem_blk5]
  intro a
  match a with
  | ⟨0, _⟩ => show win2_5.index ⟨(i 0).val / 3000, ht⟩ (0 : Fin 2) * 3000 ≤ (i 0).val ∧ (i 0).val < win2_5.index ⟨(i 0).val / 3000, ht⟩ (0 : Fin 2) * 3000 + 3000; rw [hf.2.2.2.2.2.2.2.2.2.2.1]; exact ⟨hlo, hhi⟩
  | ⟨1, _⟩ => show win2_5.index ⟨(i 0).val / 3000, ht⟩ (1 : Fin 2) * 128 ≤ (i 1).val ∧ (i 1).val < win2_5.index ⟨(i 0).val / 3000, ht⟩ (1 : Fin 2) * 128 + 128; omega

/-- THE GATES after the region. -/
theorem final5 (c : Dev nD) : (dat2 V c).arrAt 5 cfg2.N = Cert.Spec.gateE (V c main_v13) (V c main_v20) (V c main_v6) :=
  (dat2 V c).arrAt_eq_of_cover 5 _ (fun t _ => flushed5 V c t) cover5

/-! ### The messages (output window 6) -/

theorem flushed6 (c : Dev nD) (t : Fin cfg2.N) :
    (dat2 V c).flushed 6 t = ((cfg2.win 6).blk t).view.read (Elt Ideal)
      (Cert.Spec.messageE (V c main_v27) (V c main_v13) (V c main_v20) (V c main_v6)) := by
  show (cfg2.win 6).cut (grid2.coords t) ((dat2 V c).after 6 t) = _
  rw [after2_6]
  unfold out2_6
  rw [View.canon_unit_zero hz]
  simp only [View.ld_unit_zero (S := S3000x128) hz]
  funext y
  obtain ⟨h0, h1, h2, h3, h4, h5, h6, h7⟩ := emb_eq t y
  refine (message_apply (iblk2 V c 0 t) (iblk2 V c 1 t) (iblk2 V c 2 t) (iblk2 V c 3 t) y).trans ?_
  show Cert.Spec.message (V c main_v27 (((cfg2.win 3).blk t).view.emb y)) (V c main_v13 (((cfg2.win 0).blk t).view.emb y))
      (V c main_v20 (((cfg2.win 1).blk t).view.emb y)) (V c main_v6 (((cfg2.win 2).blk t).view.emb y))
    = Cert.Spec.message (V c main_v27 (((cfg2.win 6).blk t).view.emb y)) (V c main_v13 (((cfg2.win 6).blk t).view.emb y))
      (V c main_v20 (((cfg2.win 6).blk t).view.emb y)) (V c main_v6 (((cfg2.win 6).blk t).view.emb y))
  rw [h0, h1, h2, h3, h6]

theorem mem_blk6 (t : Fin cfg2.N) (i : S600000x128.Idx) :
    i ∈ ((cfg2.win 6).blk t).view.set ↔ ∀ a : Fin 2, win2_6.index t a * S3000x128.size a ≤ (i a).val ∧ (i a).val < win2_6.index t a * S3000x128.size a + S3000x128.size a := by
  show i ∈ ((View.whole main_v28_1).slice (win2_6.rect t)).set ↔ _
  rw [View.set_slice_whole, Rect.mem_set_unit]
  exact Iff.rfl

theorem cover6 (i : S600000x128.Idx) : ∃ t : Fin cfg2.N, (cfg2.win 6).flush t = true ∧ i ∈ ((cfg2.win 6).blk t).view.set := by
  obtain ⟨ht, hlo, hhi, h1⟩ := in_block i
  refine ⟨⟨(i 0).val / 3000, ht⟩, flush2_6 _, ?_⟩
  have hf := idx_facts ⟨(i 0).val / 3000, ht⟩
  rw [mem_blk6]
  intro a
  match a with
  | ⟨0, _⟩ => show win2_6.index ⟨(i 0).val / 3000, ht⟩ (0 : Fin 2) * 3000 ≤ (i 0).val ∧ (i 0).val < win2_6.index ⟨(i 0).val / 3000, ht⟩ (0 : Fin 2) * 3000 + 3000; rw [hf.2.2.2.2.2.2.2.2.2.2.2.2.1]; exact ⟨hlo, hhi⟩
  | ⟨1, _⟩ => show win2_6.index ⟨(i 0).val / 3000, ht⟩ (1 : Fin 2) * 128 ≤ (i 1).val ∧ (i 1).val < win2_6.index ⟨(i 0).val / 3000, ht⟩ (1 : Fin 2) * 128 + 128; omega

/-- THE MESSAGES after the region. -/
theorem final6 (c : Dev nD) : (dat2 V c).arrAt 6 cfg2.N
    = Cert.Spec.messageE (V c main_v27) (V c main_v13) (V c main_v20) (V c main_v6) :=
  (dat2 V c).arrAt_eq_of_cover 6 _ (fun t _ => flushed6 V c t) cover6

/-! ### The new edge features (output window 7) -/

theorem flushed7 (c : Dev nD) (t : Fin cfg2.N) :
    (dat2 V c).flushed 7 t = ((cfg2.win 7).blk t).view.read (Elt Ideal)
      (Cert.Spec.edgeOutE (V c main_arg1) (V c main_v13) (V c main_v20) (V c main_v6)) := by
  show (cfg2.win 7).cut (grid2.coords t) ((dat2 V c).after 7 t) = _
  rw [after2_7]
  unfold out2_7
  rw [View.canon_unit_zero hz]
  simp only [View.ld_unit_zero (S := S3000x128) hz]
  funext y
  obtain ⟨h0, h1, h2, h3, h4, h5, h6, h7⟩ := emb_eq t y
  refine (edgeOut_apply (iblk2 V c 0 t) (iblk2 V c 1 t) (iblk2 V c 2 t) (iblk2 V c 4 t) y).trans ?_
  show Cert.Spec.edgeOut (V c main_arg1 (((cfg2.win 4).blk t).view.emb y)) (V c main_v13 (((cfg2.win 0).blk t).view.emb y))
      (V c main_v20 (((cfg2.win 1).blk t).view.emb y)) (V c main_v6 (((cfg2.win 2).blk t).view.emb y))
    = Cert.Spec.edgeOut (V c main_arg1 (((cfg2.win 7).blk t).view.emb y)) (V c main_v13 (((cfg2.win 7).blk t).view.emb y))
      (V c main_v20 (((cfg2.win 7).blk t).view.emb y)) (V c main_v6 (((cfg2.win 7).blk t).view.emb y))
  rw [h0, h1, h2, h4, h7]

theorem mem_blk7 (t : Fin cfg2.N) (i : S600000x128.Idx) :
    i ∈ ((cfg2.win 7).blk t).view.set ↔ ∀ a : Fin 2, win2_7.index t a * S3000x128.size a ≤ (i a).val ∧ (i a).val < win2_7.index t a * S3000x128.size a + S3000x128.size a := by
  show i ∈ ((View.whole main_v28_2).slice (win2_7.rect t)).set ↔ _
  rw [View.set_slice_whole, Rect.mem_set_unit]
  exact Iff.rfl

theorem cover7 (i : S600000x128.Idx) : ∃ t : Fin cfg2.N, (cfg2.win 7).flush t = true ∧ i ∈ ((cfg2.win 7).blk t).view.set := by
  obtain ⟨ht, hlo, hhi, h1⟩ := in_block i
  refine ⟨⟨(i 0).val / 3000, ht⟩, flush2_7 _, ?_⟩
  have hf := idx_facts ⟨(i 0).val / 3000, ht⟩
  rw [mem_blk7]
  intro a
  match a with
  | ⟨0, _⟩ => show win2_7.index ⟨(i 0).val / 3000, ht⟩ (0 : Fin 2) * 3000 ≤ (i 0).val ∧ (i 0).val < win2_7.index ⟨(i 0).val / 3000, ht⟩ (0 : Fin 2) * 3000 + 3000; rw [hf.2.2.2.2.2.2.2.2.2.2.2.2.2.2.1]; exact ⟨hlo, hhi⟩
  | ⟨1, _⟩ => show win2_7.index ⟨(i 0).val / 3000, ht⟩ (1 : Fin 2) * 128 ≤ (i 1).val ∧ (i 1).val < win2_7.index ⟨(i 0).val / 3000, ht⟩ (1 : Fin 2) * 128 + 128; omega

/-- THE NEW EDGE FEATURES after the region. -/
theorem final7 (c : Dev nD) : (dat2 V c).arrAt 7 cfg2.N
    = Cert.Spec.edgeOutE (V c main_arg1) (V c main_v13) (V c main_v20) (V c main_v6) :=
  (dat2 V c).arrAt_eq_of_cover 7 _ (fun t _ => flushed7 V c t) cover7

end Cert.KernelIdeal.Region2

end
-- ==== Proof.Region3.lean ====
/-
  THE NODE STAGE of the kernel, read off its pipeline: the fourth pallas_call walks the node arrays in 25 blocks of
  2000 rows; at each block it loads the rows of the node projection `a`, of the two scattered sums `s₁`, `s₂` and of
  the input features `h`, and stores `h + silu (a + s₁ / (s₂ + ε))` entry by entry. Every block of every window sits
  at the same rows (block `t` holds rows `2000·t … 2000·t + 1999`), the 25 blocks tile the 50000 rows, so the output
  array ends holding that function of the four input arrays as the region found them, at every index.
-/
import proofs.«153043_j46102178955281_1_alg».proof.Proof.Gen.KernelIdeal.Frame
import proofs.«153043_j46102178955281_1_alg».proof.Proof.Spec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at one entry of the block: the node stage's scalar function of the four loaded entries. -/
theorem pay_apply (x0 x1 x2 x3 : Vec Ideal S2000x128 .f32) (y : S2000x128.Idx) :
    k3_pay1 x0 x1 x2 x3 y = Cert.Spec.nodeOut (x3 y) (x0 y) (x1 y) (x2 y) := by
  unfold k3_pay1
  simp only [shapeCast_self]
  show x3 y + (x0 y + Ideal.div (x1 y) (x2 y + Ideal.ofBits .f32 0x358637BD#32))
      * Ideal.div (Ideal.ofBits .f32 0x3F800000#32) (Ideal.ofBits .f32 0x3F800000#32
        + Ideal.exp (Ideal.ofBits .f32 0x00000000#32 - (x0 y + Ideal.div (x1 y) (x2 y + Ideal.ofBits .f32 0x358637BD#32)))) = _
  rw [Cert.Spec.zeroWord_sub]
  rfl

/-- The printed index maps, decided over the 25 grid points: every window's block index is (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- An entry of block `t` of input window `w` sits in its array where the same entry of the output's block sits. -/
theorem emb_eq (t : Fin cfg3.N) (y : S2000x128.Idx) :
    ((cfg3.win 0).blk t).view.emb y = ((cfg3.win 4).blk t).view.emb y
    ∧ ((cfg3.win 1).blk t).view.emb y = ((cfg3.win 4).blk t).view.emb y
    ∧ ((cfg3.win 2).blk t).view.emb y = ((cfg3.win 4).blk t).view.emb y
    ∧ ((cfg3.win 3).blk t).view.emb y = ((cfg3.win 4).blk t).view.emb y := by
  obtain ⟨e00, e01, e10, e11, e20, e21, e30, e31, e40, e41⟩ := idx_facts t
  refine ⟨?_, ?_, ?_, ?_⟩
  · funext a; apply Fin.ext
    match a with
    | ⟨0, _⟩ => show win3_0.index t (0 : Fin 2) * 2000 + 1 * (y 0).val = win3_4.index t (0 : Fin 2) * 2000 + 1 * (y 0).val; omega
    | ⟨1, _⟩ => show win3_0.index t (1 : Fin 2) * 128 + 1 * (y 1).val = win3_4.index t (1 : Fin 2) * 128 + 1 * (y 1).val; omega
  · funext a; apply Fin.ext
    match a with
    | ⟨0, _⟩ => show win3_1.index t (0 : Fin 2) * 2000 + 1 * (y 0).val = win3_4.index t (0 : Fin 2) * 2000 + 1 * (y 0).val; omega
    | ⟨1, _⟩ => show win3_1.index t (1 : Fin 2) * 128 + 1 * (y 1).val = win3_4.index t (1 : Fin 2) * 128 + 1 * (y 1).val; omega
  · funext a; apply Fin.ext
    match a with
    | ⟨0, _⟩ => show win3_2.index t (0 : Fin 2) * 2000 + 1 * (y 0).val = win3_4.index t (0 : Fin 2) * 2000 + 1 * (y 0).val; omega
    | ⟨1, _⟩ => show win3_2.index t (1 : Fin 2) * 128 + 1 * (y 1).val = win3_4.index t (1 : Fin 2) * 128 + 1 * (y 1).val; omega
  · funext a; apply Fin.ext
    match a with
    | ⟨0, _⟩ => show win3_3.index t (0 : Fin 2) * 2000 + 1 * (y 0).val = win3_4.index t (0 : Fin 2) * 2000 + 1 * (y 0).val; omega
    | ⟨1, _⟩ => show win3_3.index t (1 : Fin 2) * 128 + 1 * (y 1).val = win3_4.index t (1 : Fin 2) * 128 + 1 * (y 1).val; omega

/-- What grid point `t` writes back is block `t` of the node stage of the four arrays. -/
theorem flushed_eq (c : Dev nD) (t : Fin cfg3.N) :
    (dat3 V c).flushed 4 t = ((cfg3.win 4).blk t).view.read (Elt Ideal)
      (Cert.Spec.nodeOutN (V c main_arg0) (V c main_v5_0) (V c main_v31) (V c main_v34)) := by
  show (cfg3.win 4).cut (grid3.coords t) ((dat3 V c).after 4 t) = _
  rw [after3_4]
  unfold out3_4
  rw [View.canon_unit_zero hz]
  simp only [View.ld_unit_zero (S := S2000x128) hz]
  funext y
  obtain ⟨h0, h1, h2, h3⟩ := emb_eq t y
  show k3_pay1 (iblk3 V c 0 t) (iblk3 V c 1 t) (iblk3 V c 2 t) (iblk3 V c 3 t) y
    = Cert.Spec.nodeOut (V c main_arg0 (((cfg3.win 4).blk t).view.emb y)) (V c main_v5_0 (((cfg3.win 4).blk t).view.emb y))
        (V c main_v31 (((cfg3.win 4).blk t).view.emb y)) (V c main_v34 (((cfg3.win 4).blk t).view.emb y))
  refine (pay_apply (iblk3 V c 0 t) (iblk3 V c 1 t) (iblk3 V c 2 t) (iblk3 V c 3 t) y).trans ?_
  show Cert.Spec.nodeOut (V c main_arg0 (((cfg3.win 3).blk t).view.emb y)) (V c main_v5_0 (((cfg3.win 0).blk t).view.emb y))
        (V c main_v31 (((cfg3.win 1).blk t).view.emb y)) (V c main_v34 (((cfg3.win 2).blk t).view.emb y)) = _
  rw [h0, h1, h2, h3]

/-- An index of the array is in point `t`'s block iff each coordinate is in the block's range on its axis. -/
theorem mem_blk (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v35).slice (win3_4.rect t)).set ↔ _
  rw [View.set_slice_whole, Rect.mem_set_unit]
  exact Iff.rfl

/-- Every index of the array lies in some grid point's block: the point of its row's block of 2000. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have ht : (i 0).val / 2000 < cfg3.N := by rw [show cfg3.N = 25 from N_3]; omega
  refine ⟨⟨(i 0).val / 2000, ht⟩, flush3_4 _, ?_⟩
  obtain ⟨-, -, -, -, -, -, -, -, e40, e41⟩ := idx_facts ⟨(i 0).val / 2000, ht⟩
  rw [mem_blk]
  intro a
  match a with
  | ⟨0, _⟩ => show win3_4.index ⟨(i 0).val / 2000, ht⟩ (0 : Fin 2) * 2000 ≤ (i 0).val ∧ (i 0).val < win3_4.index ⟨(i 0).val / 2000, ht⟩ (0 : Fin 2) * 2000 + 2000; rw [e40]; show (i 0).val / 2000 * 2000 ≤ (i 0).val ∧ (i 0).val < (i 0).val / 2000 * 2000 + 2000; omega
  | ⟨1, _⟩ => show win3_4.index ⟨(i 0).val / 2000, ht⟩ (1 : Fin 2) * 128 ≤ (i 1).val ∧ (i 1).val < win3_4.index ⟨(i 0).val / 2000, ht⟩ (1 : Fin 2) * 128 + 128; rw [e41]; omega

/-- THE NODE OUTPUT after the region: the node stage of the four arrays the region found, at every index. -/
theorem final (c : Dev nD) : (dat3 V c).arrAt 4 cfg3.N
    = Cert.Spec.nodeOutN (V c main_arg0) (V c main_v5_0) (V c main_v31) (V c main_v34) :=
  (dat3 V c).arrAt_eq_of_cover 4 _ (fun t _ => flushed_eq V c t) cover

end Cert.KernelIdeal.Region3

end
-- ==== Proof.KernelOps.lean ====
/-
  THE THREE ARRAY OPERATIONS THE TWO PROGRAMS SHARE, in the kernel's vocabulary: the transpose of a weight, the gather of
  a node array's rows at the (wrapped) entries of an index array, and the scatter-add of edge rows into the nodes an
  index array names. The kernel leaves them to the host, as the reference does; no proof opens them.
-/
import proofs.«153043_j46102178955281_1_alg».proof.Proof.Gen.KernelIdeal
import Idealize.ShloMosaic.PureOps.Ideal

noncomputable section

namespace Cert.KernelIdeal.KernelValue

open Idealize.ShloMosaic Idealize.ShloMosaic.TcCoe Idealize.SL.Sem
open Cert.KernelIdeal Cert.KernelIdeal.Gen

/-- The transpose of a weight. -/
def tr (w : FVec Ideal S128x128 .f32) : FVec Ideal S128x128 .f32 := transpose S128x128 [1, 0] w transposes_S128x128_S128x128_1_0
/-- An index array with its negative entries wrapped around the node count, as a column of start indices. -/
def wrap (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)
/-- The rows of a node array at the entries of an index array. -/
def gth (x : FVec Ideal S50000x128 .f32) (s : IVec S600000 32) : FVec Ideal S600000x128 .f32 :=
  Host.gather gather_S50000x128_S600000x1_S600000x128_1_0_n_n_0_1_1128 x (wrap s)
/-- The sum, into each node, of the edge rows whose index entry names it. -/
def seg (d : IVec S600000 32) (u : FVec Ideal S600000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 d) u

end Cert.KernelIdeal.KernelValue

end
-- ==== Proof.KernelValue.lean ====
/-
  THE KERNEL'S TWO RESULTS are the whole layer of Spec.lean. The run leaves every buffer at the contents of the last
  segment boundary; walking back through the boundaries — a host stretch rewrites the buffers it writes and leaves the
  rest, a pallas_call leaves each output array at its stage of the arrays it found and every other buffer alone —
  each result is the node stage (the edge stage) of arrays that are themselves linear layers, gathers and scatter-adds
  of the inputs: the layer, over the kernel's own transpose, gather and scatter-add. (What a host stretch leaves in
  each buffer is the table of Boundary.lean.)
-/
import proofs.«153043_j46102178955281_1_alg».proof.Proof.Gen.KernelIdeal.Frame
import proofs.«153043_j46102178955281_1_alg».proof.Proof.Spec
import proofs.«153043_j46102178955281_1_alg».proof.Proof.Region0W9
import proofs.«153043_j46102178955281_1_alg».proof.Proof.Region0W10
import proofs.«153043_j46102178955281_1_alg».proof.Proof.Region0W11
import proofs.«153043_j46102178955281_1_alg».proof.Proof.Region0W12
import proofs.«153043_j46102178955281_1_alg».proof.Proof.Region1
import proofs.«153043_j46102178955281_1_alg».proof.Proof.Region2
import proofs.«153043_j46102178955281_1_alg».proof.Proof.Region3
import proofs.«153043_j46102178955281_1_alg».proof.Proof.KernelOps
import proofs.«153043_j46102178955281_1_alg».proof.Proof.Boundary

set_option maxRecDepth 16384

noncomputable section

namespace Cert.KernelIdeal.KernelValue

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## The four node projections (the first pallas_call's outputs) -/

/-- `Ah`. -/
theorem proj_a : W2 m ρ c (Proc.devRef .tc main_v5_0) = Cert.Spec.linN (m ((c : Thread nD τ).loc main_arg0)) (tr (m ((c : Thread nD τ).loc main_arg4))) (m ((c : Thread nD τ).loc main_arg5)) := by
  refine (W2_arr m ρ c 9).trans ((Region0W9.final (V1 m ρ) c).trans ?_)
  show Cert.Spec.linN (W1 m ρ c (Proc.devRef .tc main_arg0)) (W1 m ρ c (Proc.devRef .tc main_v0)) (W1 m ρ c (Proc.devRef .tc main_arg5)) = _
  rw [W1_arg0, W1_v0, W1_arg5]
/-- `Bh`. -/
theorem proj_b : W2 m ρ c (Proc.devRef .tc main_v5_1) = Cert.Spec.linN (m ((c : Thread nD τ).loc main_arg0)) (tr (m ((c : Thread nD τ).loc main_arg6))) (m ((c : Thread nD τ).loc main_arg7)) := by
  refine (W2_arr m ρ c 10).trans ((Region0W10.final (V1 m ρ) c).trans ?_)
  show Cert.Spec.linN (W1 m ρ c (Proc.devRef .tc main_arg0)) (W1 m ρ c (Proc.devRef .tc main_v1)) (W1 m ρ c (Proc.devRef .tc main_arg7)) = _
  rw [W1_arg0, W1_v1, W1_arg7]
/-- `Dh`. -/
theorem proj_d : W2 m ρ c (Proc.devRef .tc main_v5_2) = Cert.Spec.linN (m ((c : Thread nD τ).loc main_arg0)) (tr (m ((c : Thread nD τ).loc main_arg10))) (m ((c : Thread nD τ).loc main_arg11)) := by
  refine (W2_arr m ρ c 11).trans ((Region0W11.final (V1 m ρ) c).trans ?_)
  show Cert.Spec.linN (W1 m ρ c (Proc.devRef .tc main_arg0)) (W1 m ρ c (Proc.devRef .tc main_v3)) (W1 m ρ c (Proc.devRef .tc main_arg11)) = _
  rw [W1_arg0, W1_v3, W1_arg11]
/-- `Eh`. -/
theorem proj_e : W2 m ρ c (Proc.devRef .tc main_v5_3) = Cert.Spec.linN (m ((c : Thread nD τ).loc main_arg0)) (tr (m ((c : Thread nD τ).loc main_arg12))) (m ((c : Thread nD τ).loc main_arg13)) := by
  refine (W2_arr m ρ c 12).trans ((Region0W12.final (V1 m ρ) c).trans ?_)
  show Cert.Spec.linN (W1 m ρ c (Proc.devRef .tc main_arg0)) (W1 m ρ c (Proc.devRef .tc main_v4)) (W1 m ρ c (Proc.devRef .tc main_arg13)) = _
  rw [W1_arg0, W1_v4, W1_arg13]

/-- The node features pass through the first pallas_call (it only reads them). -/
theorem W2_arg0 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (W1_arg0 m ρ c)))

/-! ## The edge projection (the second pallas_call's output) -/

/-- `Ce`. -/
theorem proj_c : W3 m ρ c (Proc.devRef .tc main_v6) = Cert.Spec.linE (m ((c : Thread nD τ).loc main_arg1)) (tr (m ((c : Thread nD τ).loc main_arg8))) (m ((c : Thread nD τ).loc main_arg9)) := by
  refine (W3_arr m ρ c 3).trans ((Region1.final (V2 m ρ) c).trans ?_)
  show Cert.Spec.linE (W2 m ρ c (Proc.devRef .tc main_arg1)) (W2 m ρ c (Proc.devRef .tc main_v2)) (W2 m ρ c (Proc.devRef .tc main_arg9)) = _
  rw [W2_of_ne m ρ c main_arg1 (by decide), W2_of_ne m ρ c main_v2 (by decide), W2_of_ne m ρ c main_arg9 (by decide),
    W1_arg1, W1_v2, W1_arg9]

/-- The edge features pass through the second pallas_call (it only reads them). -/
theorem W3_arg1 : W3 m ρ c (Proc.devRef .tc main_arg1) = (m ((c : Thread nD τ).loc main_arg1)) :=
  (W3_arr m ρ c 0).trans (((dat1 (V2 m ρ) c).arrAt_in 0 rfl _).trans ((A_eq1 (V2 m ρ) c 0).trans
    ((W2_of_ne m ρ c main_arg1 (by decide)).trans (W1_arg1 m ρ c))))
theorem W3_arg0 : W3 m ρ c (Proc.devRef .tc main_arg0) = (m ((c : Thread nD τ).loc main_arg0)) := (W3_of_ne m ρ c main_arg0 (by decide)).trans (W2_arg0 m ρ c)
theorem W3_arg2 : W3 m ρ c (Proc.devRef .tc main_arg2) = (m ((c : Thread nD τ).loc main_arg2)) :=
  (W3_of_ne m ρ c main_arg2 (by decide)).trans ((W2_of_ne m ρ c main_arg2 (by decide)).trans (W1_arg2 m ρ c))
theorem W3_arg3 : W3 m ρ c (Proc.devRef .tc main_arg3) = (m ((c : Thread nD τ).loc main_arg3)) :=
  (W3_of_ne m ρ c main_arg3 (by decide)).trans ((W2_of_ne m ρ c main_arg3 (by decide)).trans (W1_arg3 m ρ c))
theorem W3_a : W3 m ρ c (Proc.devRef .tc main_v5_0) = Cert.Spec.linN (m ((c : Thread nD τ).loc main_arg0)) (tr (m ((c : Thread nD τ).loc main_arg4))) (m ((c : Thread nD τ).loc main_arg5)) := (W3_of_ne m ρ c main_v5_0 (by decide)).trans (proj_a m ρ c)
theorem W3_b : W3 m ρ c (Proc.devRef .tc main_v5_1) = Cert.Spec.linN (m ((c : Thread nD τ).loc main_arg0)) (tr (m ((c : Thread nD τ).loc main_arg6))) (m ((c : Thread nD τ).loc main_arg7)) := (W3_of_ne m ρ c main_v5_1 (by decide)).trans (proj_b m ρ c)
theorem W3_d : W3 m ρ c (Proc.devRef .tc main_v5_2) = Cert.Spec.linN (m ((c : Thread nD τ).loc main_arg0)) (tr (m ((c : Thread nD τ).loc main_arg10))) (m ((c : Thread nD τ).loc main_arg11)) := (W3_of_ne m ρ c main_v5_2 (by decide)).trans (proj_d m ρ c)
theorem W3_e : W3 m ρ c (Proc.devRef .tc main_v5_3) = Cert.Spec.linN (m ((c : Thread nD τ).loc main_arg0)) (tr (m ((c : Thread nD τ).loc main_arg12))) (m ((c : Thread nD τ).loc main_arg13)) := (W3_of_ne m ρ c main_v5_3 (by decide)).trans (proj_e m ρ c)

/-! ## The gates, the messages and the new edge features (the third pallas_call's outputs) -/

theorem gates : W5 m ρ c (Proc.devRef .tc main_v28_0) = Cert.Spec.gateE (gth (Cert.Spec.linN (m ((c : Thread nD τ).loc main_arg0)) (tr (m ((c : Thread nD τ).loc main_arg10))) (m ((c : Thread nD τ).loc main_arg11))) (m ((c : Thread nD τ).loc main_arg2)))
    (gth (Cert.Spec.linN (m ((c : Thread nD τ).loc main_arg0)) (tr (m ((c : Thread nD τ).loc main_arg12))) (m ((c : Thread nD τ).loc main_arg13))) (m ((c : Thread nD τ).loc main_arg3))) (Cert.Spec.linE (m ((c : Thread nD τ).loc main_arg1)) (tr (m ((c : Thread nD τ).loc main_arg8))) (m ((c : Thread nD τ).loc main_arg9))) := by
  refine (W5_arr m ρ c 5).trans ((Region2.final5 (V4 m ρ) c).trans ?_)
  show Cert.Spec.gateE (W4 m ρ c (Proc.devRef .tc main_v13)) (W4 m ρ c (Proc.devRef .tc main_v20)) (W4 m ρ c (Proc.devRef .tc main_v6)) = _
  rw [W4_v13, W4_v20, W4_v6, W3_d, W3_e, W3_arg2, W3_arg3, proj_c]
theorem messages : W5 m ρ c (Proc.devRef .tc main_v28_1) = Cert.Spec.messageE (gth (Cert.Spec.linN (m ((c : Thread nD τ).loc main_arg0)) (tr (m ((c : Thread nD τ).loc main_arg6))) (m ((c : Thread nD τ).loc main_arg7))) (m ((c : Thread nD τ).loc main_arg2)))
    (gth (Cert.Spec.linN (m ((c : Thread nD τ).loc main_arg0)) (tr (m ((c : Thread nD τ).loc main_arg10))) (m ((c : Thread nD τ).loc main_arg11))) (m ((c : Thread nD τ).loc main_arg2)))
    (gth (Cert.Spec.linN (m ((c : Thread nD τ).loc main_arg0)) (tr (m ((c : Thread nD τ).loc main_arg12))) (m ((c : Thread nD τ).loc main_arg13))) (m ((c : Thread nD τ).loc main_arg3))) (Cert.Spec.linE (m ((c : Thread nD τ).loc main_arg1)) (tr (m ((c : Thread nD τ).loc main_arg8))) (m ((c : Thread nD τ).loc main_arg9))) := by
  refine (W5_arr m ρ c 6).trans ((Region2.final6 (V4 m ρ) c).trans ?_)
  show Cert.Spec.messageE (W4 m ρ c (Proc.devRef .tc main_v27)) (W4 m ρ c (Proc.devRef .tc main_v13)) (W4 m ρ c (Proc.devRef .tc main_v20)) (W4 m ρ c (Proc.devRef .tc main_v6)) = _
  rw [W4_v27, W4_v13, W4_v20, W4_v6, W3_b, W3_d, W3_e, W3_arg2, W3_arg3, proj_c]
theorem edges : W5 m ρ c (Proc.devRef .tc main_v28_2) = Cert.Spec.eOut tr gth (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W5_arr m ρ c 7).trans ((Region2.final7 (V4 m ρ) c).trans ?_)
  show Cert.Spec.edgeOutE (W4 m ρ c (Proc.devRef .tc main_arg1)) (W4 m ρ c (Proc.devRef .tc main_v13)) (W4 m ρ c (Proc.devRef .tc main_v20)) (W4 m ρ c (Proc.devRef .tc main_v6)) = _
  rw [W4_arg1, W4_v13, W4_v20, W4_v6, W3_arg1, W3_d, W3_e, W3_arg2, W3_arg3, proj_c]
  rfl

/-! ## Through the scatter-adds (the fourth pallas_call's entry) -/

theorem W5_arg3 : W5 m ρ c (Proc.devRef .tc main_arg3) = (m ((c : Thread nD τ).loc main_arg3)) :=
  (W5_of_ne m ρ c main_arg3 (by decide)).trans ((W4_arg3 m ρ c).trans (W3_arg3 m ρ c))
theorem W5_arg0 : W5 m ρ c (Proc.devRef .tc main_arg0) = (m ((c : Thread nD τ).loc main_arg0)) :=
  (W5_of_ne m ρ c main_arg0 (by decide)).trans ((W4_arg0 m ρ c).trans (W3_arg0 m ρ c))
theorem W5_a : W5 m ρ c (Proc.devRef .tc main_v5_0) = Cert.Spec.linN (m ((c : Thread nD τ).loc main_arg0)) (tr (m ((c : Thread nD τ).loc main_arg4))) (m ((c : Thread nD τ).loc main_arg5)) :=
  (W5_of_ne m ρ c main_v5_0 (by decide)).trans ((W4_a m ρ c).trans (W3_a m ρ c))

/-! ## The results -/

/-- The node result: the layer's new node features. -/
theorem nodes : W7 m ρ c (Proc.devRef .tc main_v35) = Cert.Spec.hOut tr gth seg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 4).trans ((Region3.final (V6 m ρ) c).trans ?_)
  show Cert.Spec.nodeOutN (W6 m ρ c (Proc.devRef .tc main_arg0)) (W6 m ρ c (Proc.devRef .tc main_v5_0)) (W6 m ρ c (Proc.devRef .tc main_v31)) (W6 m ρ c (Proc.devRef .tc main_v34)) = _
  rw [W6_arg0, W6_a, W6_v31, W6_v34, W5_arg0, W5_a, W5_arg3, messages, gates]
  rfl

/-- The edge result: the layer's new edge features. -/
theorem edgesOut : W7 m ρ c (Proc.devRef .tc main_v28_2) = Cert.Spec.eOut tr gth (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W7_of_ne m ρ c main_v28_2 (by decide)).trans ((W6_edges m ρ c).trans (edges m ρ c))

end Cert.KernelIdeal.KernelValue

end
-- ==== Proof.Stages.lean ====
/-
  THE REFERENCE'S STAGES ARE THE SHARED MATHEMATICS. Each group of whole-array operations of the reference — a
  `dot_general` with a transposed weight plus the broadcast bias; `1 / (1 + exp (-z))` spelt with splats of `1.0`;
  the two `silu` calls; the node update with its regularised quotient — is, index by index, the corresponding function
  of Spec.lean: the host's product at an index is the sum over the one contracted axis, a splat read at an index is its
  word, and the host's negate, exponential, quotient, sum and product are the extended reals' own.
-/
import proofs.«153043_j46102178955281_1_alg».proof.Proof.Gen.ReferenceIdeal.Read
import proofs.«153043_j46102178955281_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Read Idealize.ShloMosaic Idealize.ShloMosaic.TcCoe Idealize.SL.Sem
open Idealize.ShloMosaic.ValueIdx

/-- Node-by-feature arrays, edge-by-feature arrays, weight matrices, bias vectors, index arrays. -/
abbrev CN := FVec Ideal S50000x128 .f32
abbrev CE := FVec Ideal S600000x128 .f32
abbrev CW := FVec Ideal S128x128 .f32
abbrev CB := FVec Ideal S128 .f32

/-! ## Splats read at an index -/

/-- The all-ones edge array, the all-ones node array, the node array filled with `ε`. -/
def onesE : CE := broadcastInDim S600000x128 ![] bcast_S_S600000x128 (constant (F := Ideal) S_ .f32 0x3F800000#32)
def onesN : CN := broadcastInDim S50000x128 ![] bcast_S_S50000x128 (constant (F := Ideal) S_ .f32 0x3F800000#32)
def epsN : CN := broadcastInDim S50000x128 ![] bcast_S_S50000x128 (constant (F := Ideal) S_ .f32 0x358637BD#32)

theorem onesE_apply (i : S600000x128.Idx) : onesE i = Cert.Spec.one :=
  broadcastInDim_apply _ bcast_S_S600000x128 (constant (F := Ideal) S_ .f32 0x3F800000#32) i (fun a => a.elim0) (fun a => a.elim0)
theorem onesN_apply (i : S50000x128.Idx) : onesN i = Cert.Spec.one :=
  broadcastInDim_apply _ bcast_S_S50000x128 (constant (F := Ideal) S_ .f32 0x3F800000#32) i (fun a => a.elim0) (fun a => a.elim0)
theorem epsN_apply (i : S50000x128.Idx) : epsN i = Cert.Spec.eps :=
  broadcastInDim_apply _ bcast_S_S50000x128 (constant (F := Ideal) S_ .f32 0x358637BD#32) i (fun a => a.elim0) (fun a => a.elim0)

/-! ## The linear layers -/

/-- The host's product with an (already transposed) weight plus the bias broadcast over the rows is the linear layer
    over the nodes. -/
theorem linN_eq (x : CN) (wt : CW) (b : CB) :
    addf (F := Ideal) (Host.dotGeneral (F := Ideal) dot_S50000x128_S128x128_S50000x128_1_0_0_1_n_n none x wt) (val_main_v3 (F := Ideal) b) = Cert.Spec.linN x wt b := by
  funext i
  rw [addf_apply, val_main_v3_apply, val_main_v2_apply]
  simp only [Host.dotGeneral]
  rw [Ideal.dotGeneral_apply, ← Equiv.sum_comp (contrEquiv1 dot_S50000x128_S128x128_S50000x128_1_0_0_1_n_n 128 rfl rfl).symm]
  unfold Cert.Spec.linN
  refine congrArg₂ (· + ·) (Finset.sum_congr rfl fun k _ => ?_) ?_
  · have hk := contrEquiv1_symm_val dot_S50000x128_S128x128_S50000x128_1_0_0_1_n_n 128 rfl rfl k
    have el : dot_S50000x128_S128x128_S50000x128_1_0_0_1_n_n.lhsIdx i ((contrEquiv1 dot_S50000x128_S128x128_S50000x128_1_0_0_1_n_n 128 rfl rfl).symm k) = Cert.Spec.rowN i k := funext fun a => Fin.ext (by
      match a with
      | ⟨0, _⟩ => exact lhs_main_v1_0 _ _
      | ⟨1, _⟩ => exact (lhs_main_v1_1 _ _).trans hk)
    have er : dot_S50000x128_S128x128_S50000x128_1_0_0_1_n_n.rhsIdx i ((contrEquiv1 dot_S50000x128_S128x128_S50000x128_1_0_0_1_n_n 128 rfl rfl).symm k) = Cert.Spec.colN i k := funext fun a => Fin.ext (by
      match a with
      | ⟨0, _⟩ => exact (rhs_main_v1_0 _ _).trans hk
      | ⟨1, _⟩ => exact rhs_main_v1_1 _ _)
    rw [el, er]
  · exact congrArg b (funext fun a => Fin.ext (by match a with | ⟨0, _⟩ => rfl))

/-- The same over the edges. -/
theorem linE_eq (x : CE) (wt : CW) (b : CB) :
    addf (F := Ideal) (Host.dotGeneral (F := Ideal) dot_S600000x128_S128x128_S600000x128_1_0_0_1_n_n none x wt) (val_main_v23 (F := Ideal) b) = Cert.Spec.linE x wt b := by
  funext i
  rw [addf_apply, val_main_v23_apply, val_main_v22_apply]
  simp only [Host.dotGeneral]
  rw [Ideal.dotGeneral_apply, ← Equiv.sum_comp (contrEquiv1 dot_S600000x128_S128x128_S600000x128_1_0_0_1_n_n 128 rfl rfl).symm]
  unfold Cert.Spec.linE
  refine congrArg₂ (· + ·) (Finset.sum_congr rfl fun k _ => ?_) ?_
  · have hk := contrEquiv1_symm_val dot_S600000x128_S128x128_S600000x128_1_0_0_1_n_n 128 rfl rfl k
    have el : dot_S600000x128_S128x128_S600000x128_1_0_0_1_n_n.lhsIdx i ((contrEquiv1 dot_S600000x128_S128x128_S600000x128_1_0_0_1_n_n 128 rfl rfl).symm k) = Cert.Spec.rowE i k := funext fun a => Fin.ext (by
      match a with
      | ⟨0, _⟩ => exact lhs_main_v21_0 _ _
      | ⟨1, _⟩ => exact (lhs_main_v21_1 _ _).trans hk)
    have er : dot_S600000x128_S128x128_S600000x128_1_0_0_1_n_n.rhsIdx i ((contrEquiv1 dot_S600000x128_S128x128_S600000x128_1_0_0_1_n_n 128 rfl rfl).symm k) = Cert.Spec.colE i k := funext fun a => Fin.ext (by
      match a with
      | ⟨0, _⟩ => exact (rhs_main_v21_0 _ _).trans hk
      | ⟨1, _⟩ => exact rhs_main_v21_1 _ _)
    rw [el, er]
  · exact congrArg b (funext fun a => Fin.ext (by match a with | ⟨0, _⟩ => rfl))

/-! ## The pointwise stages -/

/-- `1 / (1 + exp (-(a₀ + a₁ + a₂)))` with splats of `1.0` is the gate of every edge. -/
theorem gateE_eq (a0 a1 a2 : CE) :
    Host.divf (F := Ideal) onesE (addf (F := Ideal) onesE (Host.exp (F := Ideal) (Host.negf (F := Ideal) (addf (F := Ideal) (addf (F := Ideal) a0 a1) a2))))
      = Cert.Spec.gateE a0 a1 a2 := by
  funext i
  show Ideal.div (onesE i) (onesE i + Ideal.exp (-(a0 i + a1 i + a2 i))) = _
  rw [onesE_apply]; rfl

/-- A gathered node projection times that gate is the message of every edge. -/
theorem messageE_eq (b a0 a1 a2 : CE) :
    mulf (F := Ideal) b (Host.divf (F := Ideal) onesE (addf (F := Ideal) onesE (Host.exp (F := Ideal) (Host.negf (F := Ideal) (addf (F := Ideal) (addf (F := Ideal) a0 a1) a2)))))
      = Cert.Spec.messageE b a0 a1 a2 := by
  funext i
  show b i * Ideal.div (onesE i) (onesE i + Ideal.exp (-(a0 i + a1 i + a2 i))) = _
  rw [onesE_apply]; rfl

/-- The reference's edge update, its `silu` spelt out, is the new edge feature of every edge. -/
theorem edgeOutE_eq (e a0 a1 a2 : CE) :
    addf (F := Ideal) e (mulf (F := Ideal) (addf (F := Ideal) (addf (F := Ideal) a0 a1) a2)
      (Host.divf (F := Ideal) onesE (addf (F := Ideal) onesE (Host.exp (F := Ideal) (Host.negf (F := Ideal) (addf (F := Ideal) (addf (F := Ideal) a0 a1) a2))))))
      = Cert.Spec.edgeOutE e a0 a1 a2 := by
  funext i
  show e i + (a0 i + a1 i + a2 i) * Ideal.div (onesE i) (onesE i + Ideal.exp (-(a0 i + a1 i + a2 i))) = _
  rw [onesE_apply]; rfl

/-- The reference's node update, its `silu` spelt out, is the new node feature of every node. -/
theorem nodeOutN_eq (h a s1 s2 : CN) :
    addf (F := Ideal) h (mulf (F := Ideal) (addf (F := Ideal) a (Host.divf (F := Ideal) s1 (addf (F := Ideal) s2 epsN)))
      (Host.divf (F := Ideal) onesN (addf (F := Ideal) onesN (Host.exp (F := Ideal) (Host.negf (F := Ideal) (addf (F := Ideal) a (Host.divf (F := Ideal) s1 (addf (F := Ideal) s2 epsN))))))))
      = Cert.Spec.nodeOutN h a s1 s2 := by
  funext i
  show h i + (a i + Ideal.div (s1 i) (s2 i + epsN i)) * Ideal.div (onesN i) (onesN i + Ideal.exp (-(a i + Ideal.div (s1 i) (s2 i + epsN i)))) = _
  rw [onesN_apply, epsN_apply]; rfl

end Cert.ReferenceIdeal.Stage

end
-- ==== Proof.RefSide.lean ====
/-
  THE REFERENCE'S TWO RESULTS are the whole layer of Spec.lean: the run of the straight-line reference leaves each
  result at the composition of its whole-array operations, and that composition is, stage by stage, the shared
  mathematics over the reference's own transpose, gather and scatter-add.
-/
import proofs.«153043_j46102178955281_1_alg».proof.Proof.Gen.ReferenceIdeal.Run
import proofs.«153043_j46102178955281_1_alg».proof.Proof.Stages

set_option maxRecDepth 16384

noncomputable section

namespace Cert.ReferenceIdeal.RefValue

open Cert.ReferenceIdeal Cert.ReferenceIdeal.Gen Cert.ReferenceIdeal.Read Cert.ReferenceIdeal.Stage
open Idealize.ShloMosaic Idealize.ShloMosaic.TcCoe Idealize.SL.Sem

/-- The transpose of a weight. -/
def tr (w : FVec Ideal S128x128 .f32) : FVec Ideal S128x128 .f32 := transpose S128x128 [1, 0] w transposes_S128x128_S128x128_1_0
/-- An index array with its negative entries wrapped around the node count, as a column of start indices. -/
def wrap (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)
/-- The rows of a node array at the entries of an index array. -/
def gth (x : FVec Ideal S50000x128 .f32) (s : IVec S600000 32) : FVec Ideal S600000x128 .f32 :=
  Host.gather gather_S50000x128_S600000x1_S600000x128_1_0_n_n_0_1_1128 x (wrap s)
/-- The sum, into each node, of the edge rows whose index entry names it. -/
def seg (d : IVec S600000 32) (u : FVec Ideal S600000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 d) u

set_option maxHeartbeats 4000000 in
/-- The node result of the reference is the layer's new node features. -/
theorem res0_eq (m : (ℓ : Loc nD τ sig) → Buf (Elt Ideal) ℓ) (c : Dev nD) :
    Value.res_main_v66 (F := Ideal) m c = Cert.Spec.hOut tr gth seg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.Spec.hOut
  simp only [← nodeOutN_eq, ← messageE_eq, ← gateE_eq, ← linN_eq, ← linE_eq]
  unfold Value.res_main_v66 onesN onesE epsN val_main_v3 val_main_v2 val_main_v23 val_main_v22 tr gth seg wrap
  rfl

set_option maxHeartbeats 4000000 in
/-- The edge result of the reference is the layer's new edge features. -/
theorem res1_eq (m : (ℓ : Loc nD τ sig) → Buf (Elt Ideal) ℓ) (c : Dev nD) :
    Value.res_main_v68 (F := Ideal) m c = Cert.Spec.eOut tr gth (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.Spec.eOut
  simp only [← edgeOutE_eq, ← linN_eq, ← linE_eq]
  unfold Value.res_main_v68 onesE val_main_v3 val_main_v2 val_main_v23 val_main_v22 tr gth wrap
  rfl

end Cert.ReferenceIdeal.RefValue

end
-- ==== Proof.lean ====
/-
  A gated graph layer: node features `h`, edge features `e`, the edges' endpoints `src`, `dst`, and five linear maps.
  With `Ah, Bh, Dh, Eh` the four linear layers of `h` and `Ce` that of `e`, every edge computes
  `z = Dh[src] + Eh[dst] + Ce`, its gate `σ = 1 / (1 + e^(-z))`, its message `Bh[src] · σ` and its new feature
  `e + z · σ(z)`; every node sums the messages and the gates of its incoming edges and gets
  `h + silu (Ah + Σ msg / (Σ σ + ε))`.

  The kernel computes the five linear layers and the two pointwise stages in four pallas_calls (on blocks of rows,
  the products on the matrix unit after a change of float format that is the identity on the extended reals), and
  leaves the gathers and the scatter-adds to the host; the reference does everything on the host. Both apply the same
  transpose, gather and scatter-add operations, and the stages between them are the same functions of the same arrays
  (Spec.lean): the kernel's by reading each pallas_call's output array off its blocks (Region0 … Region3, assembled in
  KernelValue.lean), the reference's by reading its whole-array operations at an index (Stages.lean, RefSide.lean).
  No finiteness is needed: the two sides are the same sums and the same pointwise functions, term for term; the one
  algebraic step is `0 - z = -z`.
-/
import proofs.«153043_j46102178955281_1_alg».proof.Defs
import proofs.«153043_j46102178955281_1_alg».proof.Proof.Gen.Kernel
import proofs.«153043_j46102178955281_1_alg».proof.Proof.Gen.Kernel.Frame
import proofs.«153043_j46102178955281_1_alg».proof.Proof.Gen.KernelIdeal
import proofs.«153043_j46102178955281_1_alg».proof.Proof.Gen.KernelIdeal.Frame
import proofs.«153043_j46102178955281_1_alg».proof.Proof.Gen.ReferenceIdeal
import proofs.«153043_j46102178955281_1_alg».proof.Proof.Gen.ReferenceIdeal.Run
import proofs.«153043_j46102178955281_1_alg».proof.Proof.Gen.Pre_finite_inputs
import proofs.«153043_j46102178955281_1_alg».proof.Proof.ValueRun
import proofs.«153043_j46102178955281_1_alg».proof.Proof.KernelValue
import proofs.«153043_j46102178955281_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-! ## The two programs' transpose, gather and scatter-add are the same operations -/

theorem tr_eq : Cert.KernelIdeal.KernelValue.tr = Cert.ReferenceIdeal.RefValue.tr := rfl
theorem gth_eq : Cert.KernelIdeal.KernelValue.gth = Cert.ReferenceIdeal.RefValue.gth := rfl
theorem seg_eq : Cert.KernelIdeal.KernelValue.seg = Cert.ReferenceIdeal.RefValue.seg := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 2000000 in
/-- Both programs end with the layer's new node features and new edge features of the (agreeing) inputs. -/
theorem algebraic : Cert.algebraic_KernelIdeal_ReferenceIdeal := by
  intro m ρ m' ρ' _ hagree
  refine ⟨fun c => Cert.Spec.hOut Cert.KernelIdeal.KernelValue.tr Cert.KernelIdeal.KernelValue.gth Cert.KernelIdeal.KernelValue.seg
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Spec.eOut Cert.KernelIdeal.KernelValue.tr Cert.KernelIdeal.KernelValue.gth
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (Cert.KernelIdeal.KernelValue.nodes m ρ c), (h c).2.1.trans (Cert.KernelIdeal.KernelValue.edgesOut m ρ c), (h c).2.2⟩)
      (Cert.KernelIdeal.GenV.run_W7 (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.res0_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2,
        ← tr_eq, ← gth_eq, ← seg_eq]
    · rw [Cert.ReferenceIdeal.RefValue.res1_eq, (hagree c).1, (hagree c).2.1, (hagree c).2.2.1, (hagree c).2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2,
        ← tr_eq, ← gth_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
